-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x256x8192 : Shape := ⟨3, ![2, 256, 8192]⟩
abbrev S8192x8192 : Shape := ⟨2, ![8192, 8192]⟩
abbrev S8192x1024 : Shape := ⟨2, ![8192, 1024]⟩
abbrev S1024 : Shape := ⟨1, ![1024]⟩
abbrev S_ : Shape := ⟨0, ![]⟩

class Facts : Prop where
  bcast_S_S2x256x8192 : S_.BroadcastsInDim S2x256x8192 (![] : Fin 0 → Fin S2x256x8192.rank)
  reducesTo_S2x256x8192_S_d0_1_2 : S2x256x8192.ReducesTo [0, 1, 2] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S8192x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S8192x1024 .f32 := Host.absf main_arg4
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  main_v23

def fn {F : FTy → Type} [FloatOps F] (main_arg0 : FVec F S2x256x8192 .f32) (main_arg1 : FVec F S8192x8192 .f32) (main_arg2 : FVec F S8192x1024 .f32) (main_arg3 : FVec F S1024 .f32) (main_arg4 : FVec F S8192x1024 .f32) : IVec S_ 1 :=
  let main_v0 : FVec F S2x256x8192 .f32 := Host.absf main_arg0
  let main_cst : FVec F S_ .f32 := constant S_ .f32 0x7F800000#32
  let main_v1 : FVec F S2x256x8192 .f32 := broadcastInDim S2x256x8192 ![] bcast_S_S2x256x8192 main_cst
  let main_v2 : IVec S2x256x8192 1 := cmpf .olt main_v0 main_v1
  let main_c : IVec S_ 1 := constantI S_ 1 1#1
  let main_v3 : IVec S_ 1 := (fun x v => Host.reduce IntOp.andi x v reducesTo_S2x256x8192_S_d0_1_2 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_v13 main_v16
-- ==== Kernel.lean ====
abbrev S2x256x8192 : Shape := ⟨3, ![2, 256, 8192]⟩
abbrev S8192x8192 : Shape := ⟨2, ![8192, 8192]⟩
abbrev S8192x1024 : Shape := ⟨2, ![8192, 1024]⟩
abbrev S1024 : Shape := ⟨1, ![1024]⟩
abbrev S512x8192 : Shape := ⟨2, ![512, 8192]⟩
abbrev S1x1024 : Shape := ⟨2, ![1, 1024]⟩
abbrev S1024x512 : Shape := ⟨2, ![1024, 512]⟩
abbrev S1024x1024 : Shape := ⟨2, ![1024, 1024]⟩
abbrev S512x1024 : Shape := ⟨2, ![512, 1024]⟩
abbrev S512x512 : Shape := ⟨2, ![512, 512]⟩

abbrev nBuf : Space → Nat
  | .hbm => 13
  | .vmem => 11
  | .smem => 0
  | _ => 0

abbrev bufTy : (tb : Table) → Fin (tcTables nBuf tb) → BufTy
  | .hbm, ⟨0, _⟩ => ⟨S2x256x8192, .f32⟩
  | .hbm, ⟨1, _⟩ => ⟨S8192x8192, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S512x8192, .f32⟩
  | .hbm, ⟨6, _⟩ => ⟨S512x8192, .bf16⟩
  | .hbm, ⟨7, _⟩ => ⟨S8192x1024, .bf16⟩
  | .hbm, ⟨8, _⟩ => ⟨S8192x1024, .bf16⟩
  | .hbm, ⟨9, _⟩ => ⟨S1x1024, .f32⟩
  | .hbm, ⟨10, _⟩ => ⟨S1x1024, .bf16⟩
  | .hbm, ⟨11, _⟩ => ⟨S512x8192, .f32⟩
  | .hbm, ⟨12, _⟩ => ⟨S2x256x8192, .f32⟩
  | .local _ .vmem, ⟨0, _⟩ => ⟨S512x8192, .bf16⟩
  | .local _ .vmem, ⟨1, _⟩ => ⟨S1024x512, .f32⟩
  | .local _ .vmem, ⟨2, _⟩ => ⟨S1024x512, .f32⟩
  | .local _ .vmem, ⟨3, _⟩ => ⟨S1024x1024, .bf16⟩
  | .local _ .vmem, ⟨4, _⟩ => ⟨S1024x1024, .bf16⟩
  | .local _ .vmem, ⟨5, _⟩ => ⟨S512x1024, .bf16⟩
  | .local _ .vmem, ⟨6, _⟩ => ⟨S512x1024, .bf16⟩
  | .local _ .vmem, ⟨7, _⟩ => ⟨S1x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S2x256x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 2 → Nat :=
  let c0 : Index := 0#32
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  ![0, v5.toNat]
def k0_cond2 (i : grid0.Coords) : BitVec 1 :=
  let arg1 : BitVec 32 := BitVec.ofNat 32 (i 1).val
  let c15_i32 : BitVec 32 := 15#32
  let v28 : BitVec 1 := Scalar.cmpi .eq arg1 c15_i32
  let v29 : BitVec 32 := Scalar.extui v28
  let c0_i32_14 : BitVec 32 := 0#32
  let v30 : BitVec 1 := Scalar.cmpi .ne v29 c0_i32_14
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S512x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S2x256x8192_S512x8192 : S2x256x8192.ShapeCasts S512x8192
  bitsLt_bf16_f32 : FTy.bits .bf16 < FTy.bits .f32
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  h_S512x512 : 0 < S512x512.numel
  shapeCasts_S512x512_S512x512 : S512x512.ShapeCasts S512x512
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  transposes_S512x1024_p1_0_S1024x512 : S512x1024.Transposes [1, 0] S1024x512
  inb_S1024x512_S1024x512_0_0 : ∀ a, (![0, 0] : Fin 2 → Nat) a + S1024x512.size a ≤ S1024x512.size a
  h_S1024x512 : 0 < S1024x512.numel
  transposes_S1024x512_p1_0_S512x1024 : S1024x512.Transposes [1, 0] S512x1024
  shapeCasts_S512x8192_S2x256x8192 : S512x8192.ShapeCasts S2x256x8192
  dot_S1024x1024_S1024x512_S1024x512_1_0_0_1_n_n_wf : DotDims.WF S1024x1024 S1024x512 S1024x512 [1] [0] [0] [1] [] []
  dot_S512x512_S512x1024_S512x1024_1_0_0_1_n_n_wf : DotDims.WF S512x512 S512x1024 S512x1024 [1] [0] [0] [1] [] []
  hrank0 : 0 < grid0.rank
  k0_mult1_dvd : ∀ i : grid0.Coords, 128 ∣ (k0_mult1 i).toNat
  k0_off1_inb : ∀ i : grid0.Coords, ∀ a, (k0_off1 i) a + S512x512.size a ≤ S512x8192.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x8192.size a ≤ S512x8192.size a
  hwx0_0 : ∀ i : grid0.Coords, EltTy.bits .bf16 = 32 ∨ (Rect.block (s := S512x8192) S512x8192.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x8192.size a
  hwx0_1 : ∀ i : grid0.Coords, EltTy.bits .f32 = 32 ∨ (Rect.block (s := S8192x8192) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x1024.size a
  hwx0_2 : ∀ i : grid0.Coords, EltTy.bits .bf16 = 32 ∨ (Rect.block (s := S8192x1024) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x1024.size a
  hwx0_3 : ∀ i : grid0.Coords, EltTy.bits .bf16 = 32 ∨ (Rect.block (s := S8192x1024) S512x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .bf16 = 32 ∨ (Rect.block (s := S1x1024) S1x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S512x8192.size a
  hwx0_5 : ∀ i : grid0.Coords, EltTy.bits .f32 = 32 ∨ (Rect.block (s := S512x8192) S512x1024.size (cc0_transform_5 i) (hinb0_5 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_v1) S512x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S2x256x8192 : Shape := ⟨3, ![2, 256, 8192]⟩
abbrev S8192x8192 : Shape := ⟨2, ![8192, 8192]⟩
abbrev S8192x1024 : Shape := ⟨2, ![8192, 1024]⟩
abbrev S1024 : Shape := ⟨1, ![1024]⟩
abbrev S1x1024 : Shape := ⟨2, ![1, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2x256x8192, .f32⟩
  | .hbm, ⟨1, _⟩ => ⟨S8192x8192, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S8192x8192, .f32⟩
  | .hbm, ⟨9, _⟩ => ⟨S8192x8192, .f32⟩
  | .hbm, ⟨10, _⟩ => ⟨S2x256x8192, .f32⟩
  | _, _ => ⟨S2x256x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  dot_S8192x1024_S8192x1024_S8192x8192_1_1_0_0_n_n_wf : DotDims.WF S8192x1024 S8192x1024 S8192x8192 [1] [1] [0] [0] [] []
  dot_S2x256x8192_S8192x8192_S2x256x8192_2_1_01_0_n_n_wf : DotDims.WF S2x256x8192 S8192x8192 S2x256x8192 [2] [1] [0, 1] [0] [] []

variable [Facts₀]

def dot_S8192x1024_S8192x1024_S8192x8192_1_1_0_0_n_n : DotDims S8192x1024 S8192x1024 S8192x8192 where
  lhsContracting := [1]
  rhsContracting := [1]
  lhsNonContracting := [0]
  rhsNonContracting := [0]
  lhsBatch := []
  rhsBatch := []
  wf := dot_S8192x1024_S8192x1024_S8192x8192_1_1_0_0_n_n_wf
def dot_S2x256x8192_S8192x8192_S2x256x8192_2_1_01_0_n_n : DotDims S2x256x8192 S8192x8192 S2x256x8192 where
  lhsContracting := [2]
  rhsContracting := [1]
  lhsNonContracting := [0, 1]
  rhsNonContracting := [0]
  lhsBatch := []
  rhsBatch := []
  wf := dot_S2x256x8192_S8192x8192_S2x256x8192_2_1_01_0_n_n_wf

class Facts : Prop extends Facts₀ where

variable [Facts]
-- ==== Proof.Pieces.lean ====
/-
  What one grid point leaves behind, case by case.

  The body keeps a 512x1024 accumulator across the sixteen points of a run. Whatever the case, it loads a 512x512
  chunk of the activations (columns 512·j … 512·j + 511 at position j of the run), the tiles of U, S, V and base, and
  stores the accumulator plus the point's product back. At the first point of a run the accumulator it adds to is the
  zero it has just stored; at the last point the output tile receives the accumulator it has just stored.
-/
import proofs.«147516_j43052752175269_1_alg».proof.Proof.Gen.KernelIdeal.Frame
import Idealize.ShloMosaic.Lib.Pipeline.Value

set_option maxRecDepth 16384

noncomputable section

namespace Cert.KernelIdeal.Pieces

open Idealize.ShloMosaic Idealize.ShloMosaic.TcCoe Idealize.ShloMosaic.Tactic
open Idealize.SL Idealize.SL.Sem
open Cert.KernelIdeal Cert.KernelIdeal.Gen

variable {F : FTy → Type} [FloatOps F]

theorem hz : (![0, 0] : Fin 2 → Nat) = fun _ => 0 := funext fun a => by fin_cases a <;> rfl

/-- The 512x512 chunk of the activations the point at coordinates `i` loads: all rows, the columns of its run position. -/
def chunk (i : grid0.Coords) (x0 : Vec F S512x8192 .bf16) : Vec F S512x512 .bf16 :=
  View.ld x0 (Rect.unit (s := S512x8192) (k0_off1 i) S512x512.size (k0_off1_inb i))

/-- A middle point of a run: the accumulator the point before left, plus this point's product. -/
theorem sout_B (c : Dev nD) (i : grid0.Coords) (arg2 : Memref sig .tc .vmem S512x8192 .bf16) (harg2 : arg2.IsWhole) (arg3 : Memref sig .tc .vmem S1024x512 .f32) (harg3 : arg3.IsWhole) (arg4 : Memref sig .tc .vmem S1024x1024 .bf16) (harg4 : arg4.IsWhole) (arg5 : Memref sig .tc .vmem S512x1024 .bf16) (harg5 : arg5.IsWhole) (arg6 : Memref sig .tc .vmem S1x1024 .bf16) (harg6 : arg6.IsWhole) (arg7 : Memref sig .tc .vmem S512x1024 .f32) (harg7 : arg7.IsWhole) (arg8 : Memref sig .tc .vmem S512x1024 .f32) (harg8 : arg8.IsWhole) (hc0 : ¬cond0_0 i) (hc1 : ¬cond0_1 i) (x0 : Vec F S512x8192 .bf16) (x1 : Vec F S1024x512 .f32) (x2 : Vec F S1024x1024 .bf16) (x3 : Vec F S512x1024 .bf16) (x4 : Vec F S1x1024 .bf16) (xs0 : Vec F S512x1024 .f32) :
    sout0_B_0 c i arg2 harg2 arg3 harg3 arg4 harg4 arg5 harg5 arg6 harg6 arg7 harg7 arg8 harg8 hc0 hc1 x0 x1 x2 x3 x4 xs0 = k0_pay2 (chunk i x0) x2 x4 x3 x1 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S512x1024) hz, View.ld_unit_zero (S := S1024x1024) hz, View.ld_unit_zero (S := S1x1024) hz, View.ld_unit_zero (S := S1024x512) hz, View.readCov_unit_zero (S := S512x1024) _ hz]
  rfl

/-- The last point of a run leaves the same in the accumulator … -/
theorem sout_C (c : Dev nD) (i : grid0.Coords) (arg2 : Memref sig .tc .vmem S512x8192 .bf16) (harg2 : arg2.IsWhole) (arg3 : Memref sig .tc .vmem S1024x512 .f32) (harg3 : arg3.IsWhole) (arg4 : Memref sig .tc .vmem S1024x1024 .bf16) (harg4 : arg4.IsWhole) (arg5 : Memref sig .tc .vmem S512x1024 .bf16) (harg5 : arg5.IsWhole) (arg6 : Memref sig .tc .vmem S1x1024 .bf16) (harg6 : arg6.IsWhole) (arg7 : Memref sig .tc .vmem S512x1024 .f32) (harg7 : arg7.IsWhole) (arg8 : Memref sig .tc .vmem S512x1024 .f32) (harg8 : arg8.IsWhole) (hc0 : ¬cond0_0 i) (hc1 : cond0_1 i) (x0 : Vec F S512x8192 .bf16) (x1 : Vec F S1024x512 .f32) (x2 : Vec F S1024x1024 .bf16) (x3 : Vec F S512x1024 .bf16) (x4 : Vec F S1x1024 .bf16) (xs0 : Vec F S512x1024 .f32) :
    sout0_C_0 c i arg2 harg2 arg3 harg3 arg4 harg4 arg5 harg5 arg6 harg6 arg7 harg7 arg8 harg8 hc0 hc1 x0 x1 x2 x3 x4 xs0 = k0_pay2 (chunk i x0) x2 x4 x3 x1 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S512x1024) hz, View.ld_unit_zero (S := S1024x1024) hz, View.ld_unit_zero (S := S1x1024) hz, View.ld_unit_zero (S := S1024x512) hz, View.readCov_unit_zero (S := S512x1024) _ hz]
  rfl

/-- … and copies it into the output tile. -/
theorem out_C (c : Dev nD) (i : grid0.Coords) (arg2 : Memref sig .tc .vmem S512x8192 .bf16) (harg2 : arg2.IsWhole) (arg3 : Memref sig .tc .vmem S1024x512 .f32) (harg3 : arg3.IsWhole) (arg4 : Memref sig .tc .vmem S1024x1024 .bf16) (harg4 : arg4.IsWhole) (arg5 : Memref sig .tc .vmem S512x1024 .bf16) (harg5 : arg5.IsWhole) (arg6 : Memref sig .tc .vmem S1x1024 .bf16) (harg6 : arg6.IsWhole) (arg7 : Memref sig .tc .vmem S512x1024 .f32) (harg7 : arg7.IsWhole) (arg8 : Memref sig .tc .vmem S512x1024 .f32) (harg8 : arg8.IsWhole) (hc0 : ¬cond0_0 i) (hc1 : cond0_1 i) (x0 : Vec F S512x8192 .bf16) (x1 : Vec F S1024x512 .f32) (x2 : Vec F S1024x1024 .bf16) (x3 : Vec F S512x1024 .bf16) (x4 : Vec F S1x1024 .bf16) (xs0 : Vec F S512x1024 .f32) :
    out0_C_5 c i arg2 harg2 arg3 harg3 arg4 harg4 arg5 harg5 arg6 harg6 arg7 harg7 arg8 harg8 hc0 hc1 x0 x1 x2 x3 x4 xs0 = k0_pay2 (chunk i x0) x2 x4 x3 x1 xs0 := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S512x1024) hz, View.ld_unit_zero (S := S1024x1024) hz, View.ld_unit_zero (S := S1x1024) hz, View.ld_unit_zero (S := S1024x512) hz, View.readCov_unit_zero (S := S512x1024) _ hz]
  rfl

/-- The first point of a run: the accumulator is reset to the zero payload, then this point's product is added. -/
theorem sout_A (c : Dev nD) (i : grid0.Coords) (arg2 : Memref sig .tc .vmem S512x8192 .bf16) (harg2 : arg2.IsWhole) (arg3 : Memref sig .tc .vmem S1024x512 .f32) (harg3 : arg3.IsWhole) (arg4 : Memref sig .tc .vmem S1024x1024 .bf16) (harg4 : arg4.IsWhole) (arg5 : Memref sig .tc .vmem S512x1024 .bf16) (harg5 : arg5.IsWhole) (arg6 : Memref sig .tc .vmem S1x1024 .bf16) (harg6 : arg6.IsWhole) (arg7 : Memref sig .tc .vmem S512x1024 .f32) (harg7 : arg7.IsWhole) (arg8 : Memref sig .tc .vmem S512x1024 .f32) (harg8 : arg8.IsWhole) (hc0 : cond0_0 i) (hc1 : ¬cond0_1 i) (x0 : Vec F S512x8192 .bf16) (x1 : Vec F S1024x512 .f32) (x2 : Vec F S1024x1024 .bf16) (x3 : Vec F S512x1024 .bf16) (x4 : Vec F S1x1024 .bf16) :
    sout0_A_0 c i arg2 harg2 arg3 harg3 arg4 harg4 arg5 harg5 arg6 harg6 arg7 harg7 arg8 harg8 hc0 hc1 x0 x1 x2 x3 x4 = k0_pay2 (chunk i x0) x2 x4 x3 x1 (k0_pay1 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S512x1024) hz]
  simp only [View.readAt_eq_ld, harg2.read_unread, harg3.read_unread, harg4.read_unread, harg5.read_unread, harg6.read_unread, harg7.read_unread, harg8.read_unread, View.ld_unit_zero (S := S512x1024) hz, View.ld_unit_zero (S := S1024x1024) hz, View.ld_unit_zero (S := S1x1024) hz, View.ld_unit_zero (S := S1024x512) hz, View.readCov_unit_zero (S := S512x1024) _ hz]
  rfl

end Cert.KernelIdeal.Pieces

end
-- ==== Proof.LibDotSum.lean ====
/-
  A matrix product with ONE contracted axis, read at an output index as a sum over that axis's coordinate.
  The library states the product's value as a sum over the dimension numbers' contraction index set of the operands at
  two computed operand indices. For the two patterns below the contraction index is one coordinate `k`, and the operand
  indices are (r, k), (k, c) for rows × columns, and (k, r), (k, c) when the left operand is contracted over its rows.
  Each is stated for any extents and any dimension-numbers record with those axis lists.
-/
import Idealize.ShloMosaic.PureOps.Ideal.Laws
import Idealize.ShloMosaic.Lib.ValueIdx

noncomputable section

namespace Cert.Lib

open Idealize.ShloMosaic Idealize.ShloMosaic.ValueIdx

variable {M K N : Nat}

/-! ## Rows × columns: left axis 1 against right axis 0 -/

/-- The dimension numbers of an [M, K] × [K, N] product. -/
def rc (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

theorem rc_lhs_0 (i : (⟨2, ![M, N]⟩ : Shape).Idx) (q : (rc wf).contr.Idx) : ((rc wf).lhsIdx i q 0).val = (i 0).val := by
  unfold DotDims.lhsIdx
  rw [dif_neg (show ¬(0 : Fin (⟨2, ![M, K]⟩ : Shape).rank) ∈ (rc wf).lhsBatch by simp [rc]),
    dif_pos (show (0 : Fin (⟨2, ![M, K]⟩ : Shape).rank) ∈ (rc wf).lhsNonContracting by simp [rc])]
  rfl
theorem rc_lhs_1 (i : (⟨2, ![M, N]⟩ : Shape).Idx) (q : (rc wf).contr.Idx) :
    ((rc wf).lhsIdx i q 1).val = (q ⟨0, Nat.one_pos⟩).val :=
  (rc wf).lhsIdx_val_of_single rfl i q
theorem rc_rhs_0 (i : (⟨2, ![M, N]⟩ : Shape).Idx) (q : (rc wf).contr.Idx) :
    ((rc wf).rhsIdx i q 0).val = (q ⟨0, Nat.one_pos⟩).val :=
  (rc wf).rhsIdx_val_of_single rfl i q
theorem rc_rhs_1 (i : (⟨2, ![M, N]⟩ : Shape).Idx) (q : (rc wf).contr.Idx) : ((rc wf).rhsIdx i q 1).val = (i 1).val := by
  unfold DotDims.rhsIdx
  rw [dif_neg (show ¬(1 : Fin (⟨2, ![K, N]⟩ : Shape).rank) ∈ (rc wf).rhsBatch by simp [rc]),
    dif_pos (show (1 : Fin (⟨2, ![K, N]⟩ : Shape).rank) ∈ (rc wf).rhsNonContracting by simp [rc])]
  rfl

/-- The contraction sum of a rows × columns product at (r, c) runs over the pairs (r, k), (k, c). -/
theorem sum_rc {β : Type} [AddCommMonoid β] (f : (⟨2, ![M, K]⟩ : Shape).Idx → (⟨2, ![K, N]⟩ : Shape).Idx → β)
    (r : Fin M) (c : Fin N) :
    ∑ k : (rc wf).contr.Idx, f ((rc wf).lhsIdx (ix2 r c) k) ((rc wf).rhsIdx (ix2 r c) k)
      = ∑ k : Fin K, f (ix2 r k) (ix2 k c) := by
  rw [← Equiv.sum_comp (contrEquiv1 (rc wf) K rfl rfl).symm]
  refine Finset.sum_congr rfl fun k _ => ?_
  have hk := contrEquiv1_symm_val (rc wf) K rfl rfl k
  have el : (rc wf).lhsIdx (ix2 r c) ((contrEquiv1 (rc wf) K rfl rfl).symm k) = ix2 r k := funext fun a => Fin.ext (by
    match a with
    | ⟨0, _⟩ => exact rc_lhs_0 wf _ _
    | ⟨1, _⟩ => exact (rc_lhs_1 wf _ _).trans hk)
  have er : (rc wf).rhsIdx (ix2 r c) ((contrEquiv1 (rc wf) K rfl rfl).symm k) = ix2 k c := funext fun a => Fin.ext (by
    match a with
    | ⟨0, _⟩ => exact (rc_rhs_0 wf _ _).trans hk
    | ⟨1, _⟩ => exact rc_rhs_1 wf _ _)
  rw [el, er]

/-- The same for any record with those axis lists. -/
theorem sum_contr_rc {β : Type} [AddCommMonoid β] (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (f : (⟨2, ![M, K]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 r k) (ix2 k c) := by
  obtain ⟨lc, rc', ln, rn, lb, rb, wf'⟩ := d
  simp only at hlc hrc hln hrn hlb hrb
  subst hlc hrc hln hrn hlb hrb
  exact sum_rc wf' f r c

/-! ## Left operand contracted over its rows: left axis 0 against right axis 0 -/

/-- The dimension numbers of a [K, M]ᵀ × [K, N] product. -/
def cc (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ := ⟨[0], [0], [1], [1], [], [], wf⟩

variable (wg : DotDims.WF ⟨2, ![K, M]⟩ ⟨2, ![K, N]⟩ ⟨2, ![M, N]⟩ [0] [0] [1] [1] [] [])

theorem cc_lhs_0 (i : (⟨2, ![M, N]⟩ : Shape).Idx) (q : (cc wg).contr.Idx) :
    ((cc wg).lhsIdx i q 0).val = (q ⟨0, Nat.one_pos⟩).val :=
  (cc wg).lhsIdx_val_of_single rfl i q
theorem cc_lhs_1 (i : (⟨2, ![M, N]⟩ : Shape).Idx) (q : (cc wg).contr.Idx) : ((cc wg).lhsIdx i q 1).val = (i 0).val := by
  unfold DotDims.lhsIdx
  rw [dif_neg (show ¬(1 : Fin (⟨2, ![K, M]⟩ : Shape).rank) ∈ (cc wg).lhsBatch by simp [cc]),
    dif_pos (show (1 : Fin (⟨2, ![K, M]⟩ : Shape).rank) ∈ (cc wg).lhsNonContracting by simp [cc])]
  rfl
theorem cc_rhs_0 (i : (⟨2, ![M, N]⟩ : Shape).Idx) (q : (cc wg).contr.Idx) :
    ((cc wg).rhsIdx i q 0).val = (q ⟨0, Nat.one_pos⟩).val :=
  (cc wg).rhsIdx_val_of_single rfl i q
theorem cc_rhs_1 (i : (⟨2, ![M, N]⟩ : Shape).Idx) (q : (cc wg).contr.Idx) : ((cc wg).rhsIdx i q 1).val = (i 1).val := by
  unfold DotDims.rhsIdx
  rw [dif_neg (show ¬(1 : Fin (⟨2, ![K, N]⟩ : Shape).rank) ∈ (cc wg).rhsBatch by simp [cc]),
    dif_pos (show (1 : Fin (⟨2, ![K, N]⟩ : Shape).rank) ∈ (cc wg).rhsNonContracting by simp [cc])]
  rfl

/-- The contraction sum at (r, c) runs over the pairs (k, r), (k, c). -/
theorem sum_cc {β : Type} [AddCommMonoid β] (f : (⟨2, ![K, M]⟩ : Shape).Idx → (⟨2, ![K, N]⟩ : Shape).Idx → β)
    (r : Fin M) (c : Fin N) :
    ∑ k : (cc wg).contr.Idx, f ((cc wg).lhsIdx (ix2 r c) k) ((cc wg).rhsIdx (ix2 r c) k)
      = ∑ k : Fin K, f (ix2 k r) (ix2 k c) := by
  rw [← Equiv.sum_comp (contrEquiv1 (cc wg) K rfl rfl).symm]
  refine Finset.sum_congr rfl fun k _ => ?_
  have hk := contrEquiv1_symm_val (cc wg) K rfl rfl k
  have el : (cc wg).lhsIdx (ix2 r c) ((contrEquiv1 (cc wg) K rfl rfl).symm k) = ix2 k r := funext fun a => Fin.ext (by
    match a with
    | ⟨0, _⟩ => exact (cc_lhs_0 wg _ _).trans hk
    | ⟨1, _⟩ => exact cc_lhs_1 wg _ _)
  have er : (cc wg).rhsIdx (ix2 r c) ((contrEquiv1 (cc wg) K rfl rfl).symm k) = ix2 k c := funext fun a => Fin.ext (by
    match a with
    | ⟨0, _⟩ => exact (cc_rhs_0 wg _ _).trans hk
    | ⟨1, _⟩ => exact cc_rhs_1 wg _ _)
  rw [el, er]

/-- The same for any record with those axis lists. -/
theorem sum_contr_cc {β : Type} [AddCommMonoid β] (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = [])
    (f : (⟨2, ![K, M]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 k r) (ix2 k c) := by
  obtain ⟨lc, rc', ln, rn, lb, rb, wf'⟩ := d
  simp only at hlc hrc hln hrn hlb hrb
  subst hlc hrc hln hrn hlb hrb
  exact sum_cc wf' f r c

/-! ## The products themselves, at an output index -/

/-- A rows × columns block product into the zero accumulator, at (r, c): the sum over k of A (r, k) · B (k, c). -/
theorem matmul_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 r k) * B (ix2 k c) := by
  simp only [matmul]
  rw [Ideal.matmul_constant_zero_apply]
  exact sum_contr_rc d hlc hrc hln hrn hlb hrb (fun a b => A a * B b) r c

/-- A block product whose left operand is contracted over its rows, into the zero accumulator, at (r, c): the sum over
    k of A (k, r) · B (k, c). -/
theorem matmul_cc_apply {φ₁ φ₂ : FTy} (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = []) (prec : Option ContractPrecision)
    (A : FVec Ideal ⟨2, ![K, M]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 k r) * B (ix2 k c) := by
  simp only [matmul]
  rw [Ideal.matmul_constant_zero_apply]
  exact sum_contr_cc d hlc hrc hln hrn hlb hrb (fun a b => A a * B b) r c

/-- The host's rows × columns product at (r, c): the same sum. -/
theorem dotGeneral_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    Host.dotGeneral d prec A B (ix2 r c) = ∑ k : Fin K, A (ix2 r k) * B (ix2 k c) := by
  simp only [Host.dotGeneral]
  rw [Ideal.dotGeneral_apply]
  exact sum_contr_rc d hlc hrc hln hrn hlb hrb (fun a b => A a * B b) r c

end Cert.Lib

end
-- ==== Proof.Tile.lean ====
/-
  One grid point's arithmetic, read at an index.

  At a grid point the body holds a 512x512 chunk xc of the activations, a 1024x1024 tile u of U, the row s of S, a
  512x1024 tile v of V, a 1024x512 tile b of base and the running 512x1024 accumulator acc. It forms the weight tile
      w (q, k) = b (q, k) + Σ_r (u (q, r) · s (0, r)) · v (k, r)
  (the product with v transposed, into a zero accumulator), then adds to acc the product of xc with w transposed:
      acc (p, q) + Σ_k xc (p, k) · w (q, k).
  Over the extended reals a change of float format is the identity, a transposition swaps the two coordinates, the
  one row s is read at every row of its broadcast, and a block product into zero is the plain sum over the contracted
  coordinate.
-/
import proofs.«147516_j43052752175269_1_alg».proof.Proof.Gen.KernelIdeal.Skeleton
import proofs.«147516_j43052752175269_1_alg».proof.Proof.LibDotSum
import Idealize.ShloMosaic.Lib.ValueLayout
import Idealize.ShloMosaic.Lib.Pipeline.Value
import Idealize.ShloMosaic.Lib.ValueIdx

noncomputable section

namespace Cert.KernelIdeal.Tile

open Idealize.ShloMosaic Idealize.ShloMosaic.ValueIdx Cert.KernelIdeal Cert.KernelIdeal.Gen

/-- The weight tile at (q, k): the base entry plus the low-rank correction. -/
def wtile (u : Vec Ideal S1024x1024 .bf16) (s : Vec Ideal S1x1024 .bf16) (v : Vec Ideal S512x1024 .bf16)
    (b : Vec Ideal S1024x512 .f32) (q : Fin 1024) (k : Fin 512) : EReal :=
  b (ix2 q k) + ∑ r : Fin 1024, (u (ix2 q r) * s (ix2 (0 : Fin 1) r)) * v (ix2 k r)

/-- What the point adds to the accumulator and stores back, at (p, q). -/
theorem pay2_apply (xc : Vec Ideal S512x512 .bf16) (u : Vec Ideal S1024x1024 .bf16) (s : Vec Ideal S1x1024 .bf16)
    (v : Vec Ideal S512x1024 .bf16) (b : Vec Ideal S1024x512 .f32) (acc : Vec Ideal S512x1024 .f32)
    (p : Fin 512) (q : Fin 1024) :
    k0_pay2 (F := Ideal) xc u s v b acc (ix2 p q)
      = acc (ix2 p q) + ∑ k : Fin 512, xc (ix2 p k) * wtile u s v b q k := by
  unfold k0_pay2
  dsimp only
  rw [shapeCast_self, addf_apply, Cert.Lib.matmul_rc_apply _ rfl rfl rfl rfl rfl rfl]
  refine congrArg (acc (ix2 p q) + ·) (Finset.sum_congr rfl fun k _ => ?_)
  rw [shapeCast_self, transpose_ix2_apply, truncf_apply, addf_apply, Cert.Lib.matmul_rc_apply _ rfl rfl rfl rfl rfl rfl]
  unfold wtile
  refine congrArg (xc (ix2 p k) * ·) (congrArg (b (ix2 q k) + ·) (Finset.sum_congr rfl fun r _ => ?_))
  rw [mulf_apply, shapeCast_self, shapeCast_self, shapeCast_self, broadcastTo_1b_ab_apply, transpose_ix2_apply]

/-- The reset the first point of a run of sixteen stores: zero everywhere. -/
theorem pay1_apply (j : S512x1024.Idx) : k0_pay1 (F := Ideal) j = 0 := by
  unfold k0_pay1
  rw [shapeCast_self, broadcast_apply]
  exact Ideal.ofBits_zero_f32

end Cert.KernelIdeal.Tile

end
-- ==== Proof.LibFinite.lean ====
/- Finite extended reals. A value of the extended reals is FINITE when it is neither infinity, that is, when it is
   the image of a real number. The float operations read at the extended reals (sum, difference, product, quotient by a
   nonzero divisor, maximum, exponential, reciprocal square root of a positive argument, a choice between two values) keep
   finite values finite; this module states each closure fact once, together with the sign facts that go with them. -/
import Idealize.ShloMosaic.PureOps.Ideal
import Mathlib.Data.EReal.Operations
import Mathlib.Data.EReal.Inv
import Mathlib.Algebra.Order.BigOperators.Group.Finset

namespace Cert.LibFinite

open Idealize.ShloMosaic
open scoped BigOperators

/-- A finite extended real: neither `⊤` nor `⊥`. -/
def IsFin (x : EReal) : Prop := x ≠ ⊤ ∧ x ≠ ⊥

/-- The finite extended reals are exactly the real numbers. -/
theorem isFin_iff {x : EReal} : IsFin x ↔ ∃ r : ℝ, x = (r : EReal) := by
  constructor
  · rintro ⟨ht, hb⟩
    exact ⟨x.toReal, (EReal.coe_toReal ht hb).symm⟩
  · rintro ⟨r, rfl⟩
    exact ⟨EReal.coe_ne_top r, EReal.coe_ne_bot r⟩

/-- A finite value is the coercion of its real part. -/
theorem IsFin.coe_toReal {x : EReal} (h : IsFin x) : ((x.toReal : ℝ) : EReal) = x :=
  EReal.coe_toReal h.1 h.2

theorem IsFin.ne_top {x : EReal} (h : IsFin x) : x ≠ ⊤ := h.1
theorem IsFin.ne_bot {x : EReal} (h : IsFin x) : x ≠ ⊥ := h.2

/-- A real number is finite. -/
theorem isFin_coe (r : ℝ) : IsFin (r : EReal) := ⟨EReal.coe_ne_top r, EReal.coe_ne_bot r⟩

theorem isFin_zero : IsFin (0 : EReal) := isFin_coe 0
theorem isFin_one : IsFin (1 : EReal) := isFin_coe 1

theorem IsFin.add {x y : EReal} (hx : IsFin x) (hy : IsFin y) : IsFin (x + y) := by
  obtain ⟨a, rfl⟩ := isFin_iff.mp hx
  obtain ⟨b, rfl⟩ := isFin_iff.mp hy
  rw [← EReal.coe_add]; exact isFin_coe _

theorem IsFin.neg {x : EReal} (hx : IsFin x) : IsFin (-x) := by
  obtain ⟨a, rfl⟩ := isFin_iff.mp hx
  rw [← EReal.coe_neg]; exact isFin_coe _

theorem IsFin.sub {x y : EReal} (hx : IsFin x) (hy : IsFin y) : IsFin (x - y) := by
  obtain ⟨a, rfl⟩ := isFin_iff.mp hx
  obtain ⟨b, rfl⟩ := isFin_iff.mp hy
  rw [← EReal.coe_sub]; exact isFin_coe _

theorem IsFin.mul {x y : EReal} (hx : IsFin x) (hy : IsFin y) : IsFin (x * y) := by
  obtain ⟨a, rfl⟩ := isFin_iff.mp hx
  obtain ⟨b, rfl⟩ := isFin_iff.mp hy
  rw [← EReal.coe_mul]; exact isFin_coe _

/-- A finite sum of finite values is finite. -/
theorem isFin_sum {ι : Type*} (s : Finset ι) (f : ι → EReal) (h : ∀ i ∈ s, IsFin (f i)) : IsFin (∑ i ∈ s, f i) :=
  Finset.sum_induction f IsFin (fun _ _ ha hb => ha.add hb) isFin_zero h

/-- The same over every index of `Fin n`. -/
theorem isFin_sum_univ {n : Nat} (f : Fin n → EReal) (h : ∀ i, IsFin (f i)) : IsFin (∑ i, f i) :=
  isFin_sum Finset.univ f fun i _ => h i

theorem IsFin.max {x y : EReal} (hx : IsFin x) (hy : IsFin y) : IsFin (max x y) := by
  rcases max_choice x y with h | h <;> rw [h] <;> assumption

theorem IsFin.min {x y : EReal} (hx : IsFin x) (hy : IsFin y) : IsFin (min x y) := by
  rcases min_choice x y with h | h <;> rw [h] <;> assumption

/-- A choice between two finite values is finite. -/
theorem IsFin.ite {c : Prop} [Decidable c] {x y : EReal} (hx : IsFin x) (hy : IsFin y) : IsFin (if c then x else y) := by
  split <;> assumption

/-- The same for a Boolean condition. -/
theorem IsFin.cond {c : Bool} {x y : EReal} (hx : IsFin x) (hy : IsFin y) : IsFin (bif c then x else y) := by
  cases c <;> assumption

/-- The exponential of a finite value is the real exponential. -/
theorem exp_coe (r : ℝ) : Ideal.exp (r : EReal) = ((Real.exp r : ℝ) : EReal) := rfl

theorem IsFin.exp {x : EReal} (hx : IsFin x) : IsFin (Ideal.exp x) := by
  obtain ⟨a, rfl⟩ := isFin_iff.mp hx
  rw [exp_coe]; exact isFin_coe _

/-- The exponential of a finite value is positive. -/
theorem IsFin.exp_pos {x : EReal} (hx : IsFin x) : 0 < Ideal.exp x := by
  obtain ⟨a, rfl⟩ := isFin_iff.mp hx
  rw [exp_coe]; exact EReal.coe_pos.mpr (Real.exp_pos a)

/-- The exponential is nonnegative at every extended real (`0` at `⊥`, `⊤` at `⊤`). -/
theorem exp_nonneg (x : EReal) : 0 ≤ Ideal.exp x := by
  induction x using EReal.rec with
  | bot => exact le_of_eq rfl
  | top => exact le_top
  | coe r => rw [exp_coe]; exact EReal.coe_nonneg.mpr (Real.exp_pos r).le

/-- The reciprocal square root of a positive real is the real reciprocal of its square root. -/
theorem rsqrt_coe_of_pos {r : ℝ} (hr : 0 < r) : Ideal.rsqrt (r : EReal) = (((Real.sqrt r)⁻¹ : ℝ) : EReal) := by
  rw [Ideal.rsqrt_coe, if_neg (not_lt.mpr hr.le), if_neg hr.ne']

theorem IsFin.rsqrt {x : EReal} (hx : IsFin x) (hpos : 0 < x) : IsFin (Ideal.rsqrt x) := by
  obtain ⟨a, rfl⟩ := isFin_iff.mp hx
  rw [rsqrt_coe_of_pos (EReal.coe_pos.mp hpos)]; exact isFin_coe _

/-- The reciprocal square root of a positive finite value is positive. -/
theorem IsFin.rsqrt_pos {x : EReal} (hx : IsFin x) (hpos : 0 < x) : 0 < Ideal.rsqrt x := by
  obtain ⟨a, rfl⟩ := isFin_iff.mp hx
  have ha : 0 < a := EReal.coe_pos.mp hpos
  rw [rsqrt_coe_of_pos ha]
  exact EReal.coe_pos.mpr (inv_pos.mpr (Real.sqrt_pos.mpr ha))

/-- A quotient of reals by a nonzero real is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

theorem IsFin.div {x y : EReal} (hx : IsFin x) (hy : IsFin y) (h0 : y ≠ 0) : IsFin (Ideal.div x y) := by
  obtain ⟨a, rfl⟩ := isFin_iff.mp hx
  obtain ⟨b, rfl⟩ := isFin_iff.mp hy
  have hb : b ≠ 0 := fun h => h0 (by rw [h, EReal.coe_zero])
  rw [div_coe_coe a hb]; exact isFin_coe _

/-- A square is nonnegative, at the infinities too (`⊥ * ⊥ = ⊤`). -/
theorem zero_le_mul_self (x : EReal) : 0 ≤ x * x := by
  induction x using EReal.rec with
  | bot => rw [EReal.bot_mul_bot]; exact le_top
  | top => rw [EReal.top_mul_top]; exact le_top
  | coe r => rw [← EReal.coe_mul]; exact EReal.coe_nonneg.mpr (mul_self_nonneg r)

/-- A finite sum of nonnegative values is nonnegative. -/
theorem zero_le_sum {ι : Type*} (s : Finset ι) (f : ι → EReal) (h : ∀ i ∈ s, 0 ≤ f i) : 0 ≤ ∑ i ∈ s, f i :=
  Finset.sum_nonneg h

theorem zero_le_sum_univ {n : Nat} (f : Fin n → EReal) (h : ∀ i, 0 ≤ f i) : 0 ≤ ∑ i, f i :=
  Finset.sum_nonneg fun i _ => h i

/-- The sum of real numbers, taken in the extended reals, is the real sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative finite value plus a positive finite value is positive (a variance plus its epsilon). -/
theorem add_pos_of_nonneg_of_pos {x y : EReal} (hx : 0 ≤ x) (hy : 0 < y) : 0 < x + y :=
  lt_of_lt_of_le hy (le_add_of_nonneg_left hx)

end Cert.LibFinite
-- ==== Proof.LibGcnRuns.lean ====
/-
  Two ways to compute a graph-convolution layer's pre-activation and why they agree.

  Aggregation first: row r of (S · X) is contracted with column o of Wᵀ, that is
      ∑ j, (∑ k, S r k * X k j) * Wt j o.
  Projection first: Z = X · Wᵀ is formed once, and S · Z is accumulated over the contraction axis in equal runs,
      ∑ s < B, ∑ k' < C, S r (C s + k') * Z (C s + k') o,     Z k o = ∑ j, X k j * Wt j o.
  On the extended reals a sum may be regrouped and reordered freely, but a factor moves across a sum only when nothing is
  infinite; so the first law below asks every entry to be finite, and the second (cutting a sum over B·C terms into B
  runs of C) asks nothing.
-/
import Mathlib.Algebra.BigOperators.Fin
import Mathlib.Algebra.BigOperators.Intervals
import proofs.«147516_j43052752175269_1_alg».proof.Proof.LibFinite

namespace Cert.LibGcnRuns

open Cert.LibFinite
open scoped BigOperators

/-- For finite entries, contracting (s · x) with w is contracting s with (x · w):
    ∑ j, (∑ k, s k * x k j) * w j = ∑ k, s k * ∑ j, x k j * w j. -/
theorem agg_proj_comm {ιk ιj : Type*} [Fintype ιk] [Fintype ιj] (s : ιk → EReal) (x : ιk → ιj → EReal) (w : ιj → EReal)
    (hs : ∀ k, IsFin (s k)) (hx : ∀ k j, IsFin (x k j)) (hw : ∀ j, IsFin (w j)) :
    ∑ j, (∑ k, s k * x k j) * w j = ∑ k, s k * ∑ j, x k j * w j := by
  choose s' hs' using fun k => isFin_iff.mp (hs k)
  choose x' hx' using fun k j => isFin_iff.mp (hx k j)
  choose w' hw' using fun j => isFin_iff.mp (hw j)
  have hL : ∑ j, (∑ k, s k * x k j) * w j = ((∑ j, (∑ k, s' k * x' k j) * w' j : ℝ) : EReal) := by
    rw [coe_sum]
    refine Finset.sum_congr rfl fun j _ => ?_
    rw [EReal.coe_mul, coe_sum, hw' j]
    refine congrArg (· * (w' j : EReal)) (Finset.sum_congr rfl fun k _ => ?_)
    rw [EReal.coe_mul, hs' k, hx' k j]
  have hR : ∑ k, s k * ∑ j, x k j * w j = ((∑ k, s' k * ∑ j, x' k j * w' j : ℝ) : EReal) := by
    rw [coe_sum]
    refine Finset.sum_congr rfl fun k _ => ?_
    rw [EReal.coe_mul, coe_sum, hs' k]
    refine congrArg ((s' k : EReal) * ·) (Finset.sum_congr rfl fun j _ => ?_)
    rw [EReal.coe_mul, hx' k j, hw' j]
  rw [hL, hR]
  refine congrArg _ ?_
  simp only [Finset.sum_mul, Finset.mul_sum]
  rw [Finset.sum_comm]
  exact Finset.sum_congr rfl fun k _ => Finset.sum_congr rfl fun j _ => mul_assoc _ _ _

/-- A sum over the first B·C naturals is the sum, over B runs, of each run's C terms. -/
theorem sum_range_runs {β : Type*} [AddCommMonoid β] (C : ℕ) (g : ℕ → β) :
    ∀ B : ℕ, ∑ i ∈ Finset.range (B * C), g i = ∑ s ∈ Finset.range B, ∑ k ∈ Finset.range C, g (s * C + k)
  | 0 => by simp
  | B + 1 => by
    rw [Nat.succ_mul, Finset.sum_range_add, Finset.sum_range_succ, sum_range_runs C g B]

/-- The same with the whole sum and each run's sum taken over `Fin`. -/
theorem sum_fin_runs {β : Type*} [AddCommMonoid β] (B C : ℕ) (g : ℕ → β) :
    ∑ i : Fin (B * C), g i.val = ∑ s ∈ Finset.range B, ∑ k : Fin C, g (s * C + k.val) := by
  rw [Fin.sum_univ_eq_sum_range (fun i => g i) (B * C), sum_range_runs C g B]
  exact Finset.sum_congr rfl fun s _ => (Fin.sum_univ_eq_sum_range (fun k => g (s * C + k)) C).symm

/-- The position of term k of run r among B runs of C terms. -/
theorem run_index_lt {B C r k : ℕ} (hr : r < B) (hk : k < C) : r * C + k < B * C :=
  calc r * C + k < r * C + C := Nat.add_lt_add_left hk _
    _ = (r + 1) * C := (Nat.succ_mul r C).symm
    _ ≤ B * C := Nat.mul_le_mul_right C hr

/-- Projection first, accumulated in runs: if run r's term k' is s (r·C + k') times the projected row
    ∑ j, x (r·C + k') j * w j, then the B run sums add up to the aggregation-first contraction, every entry being
    finite. -/
theorem proj_first_runs {B C N : ℕ} {ιj : Type*} [Fintype ιj] (hN : N = B * C)
    (s : Fin N → EReal) (x : Fin N → ιj → EReal) (w : ιj → EReal)
    (hs : ∀ k, IsFin (s k)) (hx : ∀ k j, IsFin (x k j)) (hw : ∀ j, IsFin (w j))
    (T : ℕ → Fin C → EReal)
    (hT : ∀ (r : ℕ) (hr : r < B) (k' : Fin C),
      T r k' = s ⟨r * C + k'.val, hN ▸ run_index_lt hr k'.isLt⟩ * ∑ j, x ⟨r * C + k'.val, hN ▸ run_index_lt hr k'.isLt⟩ j * w j) :
    ∑ r ∈ Finset.range B, ∑ k' : Fin C, T r k' = ∑ j, (∑ k, s k * x k j) * w j := by
  subst hN
  rw [agg_proj_comm s x w hs hx hw]
  let g : ℕ → EReal := fun n => if h : n < B * C then s ⟨n, h⟩ * ∑ j, x ⟨n, h⟩ j * w j else 0
  have hg : ∀ k : Fin (B * C), s k * ∑ j, x k j * w j = g k.val := fun k => by
    show _ = dite _ _ _
    rw [dif_pos k.isLt]
  rw [Finset.sum_congr rfl fun k _ => hg k, sum_fin_runs B C g]
  refine Finset.sum_congr rfl fun r hr => Finset.sum_congr rfl fun k' _ => ?_
  have hr' : r < B := Finset.mem_range.mp hr
  rw [hT r hr' k']
  show _ = dite _ _ _
  rw [dif_pos (run_index_lt hr' k'.isLt)]

end Cert.LibGcnRuns
-- ==== Proof.Runs.lean ====
/-
  A sum accumulated run by run.

  A sum over N = B·C terms can be taken in B consecutive runs of C terms, starting from nothing and adding one run at a
  time: after J runs the accumulator holds the terms 0 … J·C − 1. Addition of extended reals is commutative and
  associative, so this regrouping asks nothing of the terms. The terms are indexed by naturals here, a family on
  `Fin N` being extended by zero past N (no run ever reads past N).
-/
import proofs.«147516_j43052752175269_1_alg».proof.Proof.LibGcnRuns
import Mathlib.Algebra.BigOperators.Fin
import Mathlib.Algebra.BigOperators.Intervals

namespace Cert.Runs

open scoped BigOperators

variable {β : Type*} [AddCommMonoid β]

/-- A family on `Fin N` read at a natural position: zero past the end. -/
def ext {N : ℕ} (f : Fin N → β) (i : ℕ) : β := if h : i < N then f ⟨i, h⟩ else 0

theorem ext_of_lt {N : ℕ} (f : Fin N → β) {i : ℕ} (h : i < N) : ext f i = f ⟨i, h⟩ := dif_pos h

/-- Run `s` of `C` terms. -/
def run (C : ℕ) {N : ℕ} (f : Fin N → β) (s : ℕ) : β := ∑ k : Fin C, ext f (s * C + k.val)

/-- The first `J` runs of `C` terms, added up. -/
def runs (C : ℕ) {N : ℕ} (f : Fin N → β) (J : ℕ) : β := ∑ s ∈ Finset.range J, run C f s

theorem runs_zero (C : ℕ) {N : ℕ} (f : Fin N → β) : runs C f 0 = 0 := Finset.sum_range_zero _

/-- One more run on top of the first `J`. -/
theorem runs_succ (C : ℕ) {N : ℕ} (f : Fin N → β) (J : ℕ) : runs C f (J + 1) = runs C f J + run C f J :=
  Finset.sum_range_succ _ _

/-- The first run alone, on top of a zero start. -/
theorem runs_one (C : ℕ) {N : ℕ} (f : Fin N → β) : runs C f 1 = 0 + run C f 0 := by
  rw [runs_succ, runs_zero]

/-- All `B` runs of `C` terms together are the whole sum over `N = B · C` terms. -/
theorem runs_all {N : ℕ} (B C : ℕ) (hN : N = B * C) (f : Fin N → β) : runs C f B = ∑ i : Fin N, f i := by
  subst hN
  have h : ∑ i : Fin (B * C), f i = ∑ i : Fin (B * C), ext f i.val :=
    Finset.sum_congr rfl fun i _ => (ext_of_lt f i.isLt).symm
  rw [h, Cert.LibGcnRuns.sum_fin_runs B C (ext f)]
  rfl

end Cert.Runs
-- ==== Proof.Accum.lean ====
/-
  The kernel's output array, entry by entry.

  The grid has 8 x 16 points; point t works on rows 1024·(t / 16) … of the weight (the output's columns) and on the
  contraction coordinates 512·(t mod 16) …. Writing, for an output row p and column O,
      term i = x (p, i) · (base (O, i) + Σ_r (U (O, r) · S (0, r)) · V (i, r)),      i < 8192,
  the accumulator after point t holds, at (p, q), the first (t mod 16) + 1 runs of 512 terms for the column
  O = 1024·(t / 16) + q: a run of sixteen points starts from the zero it stores and each point adds its own run. The
  last point of a run writes the accumulator to the output tile, which therefore holds all sixteen runs, that is the
  whole sum over i; the eight output tiles cover the array.
-/
import proofs.«147516_j43052752175269_1_alg».proof.Proof.Gen.KernelIdeal.Frame
import proofs.«147516_j43052752175269_1_alg».proof.Proof.Pieces
import proofs.«147516_j43052752175269_1_alg».proof.Proof.Tile
import proofs.«147516_j43052752175269_1_alg».proof.Proof.Runs
import Idealize.ShloMosaic.Lib.Pipeline.Value
import Idealize.ShloMosaic.Lib.ValueIdx

set_option maxRecDepth 16384

noncomputable section

namespace Cert.KernelIdeal.Accum

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ)

/-! ## The arrays the region finds, and a point's blocks of them -/

/-- The activations, flattened to 512 rows. -/
abbrev xf (c : Dev nD) : Vec Ideal S512x8192 .bf16 := V m c main_v1
/-- base. -/
abbrev bs (c : Dev nD) : Vec Ideal S8192x8192 .f32 := V m c main_arg1
/-- U. -/
abbrev uu (c : Dev nD) : Vec Ideal S8192x1024 .bf16 := V m c main_v2
/-- V. -/
abbrev vv (c : Dev nD) : Vec Ideal S8192x1024 .bf16 := V m c main_v3
/-- S as one row. -/
abbrev ss (c : Dev nD) : Vec Ideal S1x1024 .bf16 := V m c main_v5

abbrev xblk (c : Dev nD) (t : Fin cfg0.N) : Vec Ideal S512x8192 .bf16 := iblk m c 0 t
abbrev bblk (c : Dev nD) (t : Fin cfg0.N) : Vec Ideal S1024x512 .f32 := iblk m c 1 t
abbrev ublk (c : Dev nD) (t : Fin cfg0.N) : Vec Ideal S1024x1024 .bf16 := iblk m c 2 t
abbrev vblk (c : Dev nD) (t : Fin cfg0.N) : Vec Ideal S512x1024 .bf16 := iblk m c 3 t
abbrev sblk (c : Dev nD) (t : Fin cfg0.N) : Vec Ideal S1x1024 .bf16 := iblk m c 4 t

/-- Which block each window is on at point t, and where the body's chunk of the activations starts: decided over the grid. -/
theorem idx_facts : ∀ t : Fin cfg0.N,
    win0_0.index t (0 : Fin 2) = 0 ∧ win0_0.index t (1 : Fin 2) = 0
    ∧ win0_1.index t (0 : Fin 2) = t.val / 16 ∧ win0_1.index t (1 : Fin 2) = t.val % 16
    ∧ win0_2.index t (0 : Fin 2) = t.val / 16 ∧ win0_2.index t (1 : Fin 2) = 0
    ∧ win0_3.index t (0 : Fin 2) = t.val % 16 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = t.val / 16
    ∧ k0_off1 (grid0.coords t) (0 : Fin 2) = 0 ∧ k0_off1 (grid0.coords t) (1 : Fin 2) = t.val % 16 * 512 :=
  (by decide +kernel : ∀ t : Fin grid0.N, _)

theorem hN : cfg0.N = 128 := N_0

/-- The chunk of the activations: rows as they are, column k of the chunk is column 512·(t mod 16) + k. -/
theorem chunk_apply (c : Dev nD) (t : Fin cfg0.N) (p : Fin 512) (k : Fin 512) (i : Fin 8192)
    (hi : i.val = t.val % 16 * 512 + k.val) :
    Pieces.chunk (grid0.coords t) (xblk m c t) (ix2 p k) = xf m c (ix2 p i) := by
  obtain ⟨e0, e1, -, -, -, -, -, -, -, -, -, -, o0, o1⟩ := idx_facts t
  show V m c main_v1 (((cfg0.win 0).blk t).view.emb ((Rect.unit (s := S512x8192) (k0_off1 (grid0.coords t)) S512x512.size (k0_off1_inb (grid0.coords t))).idx (ix2 p k))) = V m c main_v1 (ix2 p i)
  refine congrArg (V m c main_v1) (funext fun ax => Fin.ext ?_)
  match ax with
  | ⟨0, _⟩ => show win0_0.index t (0 : Fin 2) * 512 + 1 * (k0_off1 (grid0.coords t) (0 : Fin 2) + 1 * p.val) = p.val; omega
  | ⟨1, _⟩ => show win0_0.index t (1 : Fin 2) * 8192 + 1 * (k0_off1 (grid0.coords t) (1 : Fin 2) + 1 * k.val) = i.val; omega

/-- The tile of base: row a is row 1024·(t / 16) + a, column b is column 512·(t mod 16) + b. -/
theorem bblk_apply (c : Dev nD) (t : Fin cfg0.N) (a : Fin 1024) (b : Fin 512) (O i : Fin 8192)
    (hO : O.val = t.val / 16 * 1024 + a.val) (hi : i.val = t.val % 16 * 512 + b.val) :
    bblk m c t (ix2 a b) = bs m c (ix2 O i) := by
  obtain ⟨-, -, e0, e1, -⟩ := idx_facts t
  show V m c main_arg1 (((cfg0.win 1).blk t).view.emb (ix2 a b)) = V m c main_arg1 (ix2 O i)
  refine congrArg (V m c main_arg1) (funext fun ax => Fin.ext ?_)
  match ax with
  | ⟨0, _⟩ => show win0_1.index t (0 : Fin 2) * 1024 + 1 * a.val = O.val; omega
  | ⟨1, _⟩ => show win0_1.index t (1 : Fin 2) * 512 + 1 * b.val = i.val; omega

/-- The tile of U: row a is row 1024·(t / 16) + a, all 1024 columns. -/
theorem ublk_apply (c : Dev nD) (t : Fin cfg0.N) (a : Fin 1024) (r : Fin 1024) (O : Fin 8192)
    (hO : O.val = t.val / 16 * 1024 + a.val) :
    ublk m c t (ix2 a r) = uu m c (ix2 O r) := by
  obtain ⟨-, -, -, -, e0, e1, -⟩ := idx_facts t
  show V m c main_v2 (((cfg0.win 2).blk t).view.emb (ix2 a r)) = V m c main_v2 (ix2 O r)
  refine congrArg (V m c main_v2) (funext fun ax => Fin.ext ?_)
  match ax with
  | ⟨0, _⟩ => show win0_2.index t (0 : Fin 2) * 1024 + 1 * a.val = O.val; omega
  | ⟨1, _⟩ => show win0_2.index t (1 : Fin 2) * 1024 + 1 * r.val = r.val; omega

/-- The tile of V: row k is row 512·(t mod 16) + k, all 1024 columns. -/
theorem vblk_apply (c : Dev nD) (t : Fin cfg0.N) (k : Fin 512) (r : Fin 1024) (i : Fin 8192)
    (hi : i.val = t.val % 16 * 512 + k.val) :
    vblk m c t (ix2 k r) = vv m c (ix2 i r) := by
  obtain ⟨-, -, -, -, -, -, e0, e1, -⟩ := idx_facts t
  show V m c main_v3 (((cfg0.win 3).blk t).view.emb (ix2 k r)) = V m c main_v3 (ix2 i r)
  refine congrArg (V m c main_v3) (funext fun ax => Fin.ext ?_)
  match ax with
  | ⟨0, _⟩ => show win0_3.index t (0 : Fin 2) * 512 + 1 * k.val = i.val; omega
  | ⟨1, _⟩ => show win0_3.index t (1 : Fin 2) * 1024 + 1 * r.val = r.val; omega

/-- The row S is the same at every point. -/
theorem sblk_apply (c : Dev nD) (t : Fin cfg0.N) (u : Fin 1) (r : Fin 1024) :
    sblk m c t (ix2 u r) = ss m c (ix2 u r) := by
  obtain ⟨-, -, -, -, -, -, -, -, e0, e1, -⟩ := idx_facts t
  show V m c main_v5 (((cfg0.win 4).blk t).view.emb (ix2 u r)) = V m c main_v5 (ix2 u r)
  refine congrArg (V m c main_v5) (funext fun ax => Fin.ext ?_)
  match ax with
  | ⟨0, _⟩ => show win0_4.index t (0 : Fin 2) * 1 + 1 * u.val = u.val; omega
  | ⟨1, _⟩ => show win0_4.index t (1 : Fin 2) * 1024 + 1 * r.val = r.val; omega

/-! ## The terms of an output entry, and one point's run of them -/

/-- Entry (O, i) of the weight: base plus the low-rank correction. -/
def W (c : Dev nD) (O i : Fin 8192) : EReal :=
  bs m c (ix2 O i) + ∑ r : Fin 1024, (uu m c (ix2 O r) * ss m c (ix2 (0 : Fin 1) r)) * vv m c (ix2 i r)

/-- The terms of output entry (p, O): term i is x (p, i) · w (O, i). -/
def terms (c : Dev nD) (p : Fin 512) (O : Fin 8192) (i : Fin 8192) : EReal := xf m c (ix2 p i) * W m c O i

/-- What point t adds at (p, q) is run (t mod 16) of the terms of entry (p, 1024·(t / 16) + q). -/
theorem point_sum (c : Dev nD) (t : Fin cfg0.N) (p : Fin 512) (q : Fin 1024) (O : Fin 8192)
    (hO : O.val = t.val / 16 * 1024 + q.val) :
    ∑ k : Fin 512, Pieces.chunk (grid0.coords t) (xblk m c t) (ix2 p k)
        * Tile.wtile (ublk m c t) (sblk m c t) (vblk m c t) (bblk m c t) q k
      = Cert.Runs.run 512 (terms m c p O) (t.val % 16) := by
  have hT : t.val < 128 := lt_of_lt_of_eq t.isLt (hN)
  unfold Cert.Runs.run
  refine Finset.sum_congr rfl fun k _ => ?_
  have hk : t.val % 16 * 512 + k.val < 8192 := by have := k.isLt; omega
  rw [Cert.Runs.ext_of_lt _ hk]
  unfold terms W Tile.wtile
  rw [chunk_apply m c t p k ⟨_, hk⟩ rfl, bblk_apply m c t q k O ⟨_, hk⟩ hO rfl]
  refine congrArg (xf m c (ix2 p ⟨_, hk⟩) * ·) (congrArg (bs m c (ix2 O ⟨_, hk⟩) + ·) (Finset.sum_congr rfl fun r _ => ?_))
  rw [ublk_apply m c t q r O hO, sblk_apply m c t 0 r, vblk_apply m c t k r ⟨_, hk⟩ rfl]

/-! ## The accumulator after each point -/

/-- After point t the accumulator holds, at (p, q), the first (t mod 16) + 1 runs of the terms of entry
    (p, 1024·(t / 16) + q). -/
theorem acc_eq (c : Dev nD) : ∀ (n : ℕ) (t : Fin cfg0.N), t.val = n → ∀ (p : Fin 512) (q : Fin 1024) (O : Fin 8192),
    O.val = t.val / 16 * 1024 + q.val →
    (outsAt0 m c t.val t.isLt).2 (ix2 p q) = Cert.Runs.runs 512 (terms m c p O) (t.val % 16 + 1) := by
  intro n
  induction n using Nat.strong_induction_on with
  | _ n ih =>
  intro t ht p q O hO
  have hT : t.val < 128 := lt_of_lt_of_eq t.isLt (hN)
  have hN' : cfg0.N = 128 := hN
  by_cases h0 : t.val % 16 = 0
  · have h1 : ¬t.val % 16 = 15 := by omega
    rw [outsAt0_A m c t h0 h1]
    dsimp only
    refine (congrFun (Pieces.sout_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)) (ix2 p q)).trans ?_
    refine (Tile.pay2_apply (Pieces.chunk (grid0.coords t) (xblk m c t)) (ublk m c t) (sblk m c t) (vblk m c t) (bblk m c t) (k0_pay1 (F := Ideal)) p q).trans ?_
    rw [Tile.pay1_apply, point_sum m c t p q O hO, h0]
    exact (Cert.Runs.runs_one 512 _).symm
  · have hpos : t.val - 1 < n := by omega
    have hlt : t.val - 1 < cfg0.N := by omega
    have hO' : O.val = (t.val - 1) / 16 * 1024 + q.val := by omega
    have hrun : (t.val - 1) % 16 + 1 = t.val % 16 := by omega
    have hprev : (outsAt0 m c (t.val - 1) (Nat.lt_of_le_of_lt (Nat.sub_le _ _) t.isLt)).2 (ix2 p q) = Cert.Runs.runs 512 (terms m c p O) (t.val % 16) :=
      (ih (t.val - 1) hpos ⟨t.val - 1, hlt⟩ rfl p q O hO').trans (congrArg (Cert.Runs.runs 512 (terms m c p O)) hrun)
    by_cases h1 : t.val % 16 = 15
    · rw [outsAt0_C m c t h0 h1]
      dsimp only
      refine (congrFun (Pieces.sout_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2) (ix2 p q)).trans ?_
      refine (Tile.pay2_apply (Pieces.chunk (grid0.coords t) (xblk m c t)) (ublk m c t) (sblk m c t) (vblk m c t) (bblk m c t) (outsAt0 m c (t.val - 1) (Nat.lt_of_le_of_lt (Nat.sub_le _ _) t.isLt)).2 p q).trans ?_
      rw [point_sum m c t p q O hO, hprev]
      exact (Cert.Runs.runs_succ 512 _ _).symm
    · rw [outsAt0_B m c t h0 h1]
      dsimp only
      refine (congrFun (Pieces.sout_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2) (ix2 p q)).trans ?_
      refine (Tile.pay2_apply (Pieces.chunk (grid0.coords t) (xblk m c t)) (ublk m c t) (sblk m c t) (vblk m c t) (bblk m c t) (outsAt0 m c (t.val - 1) (Nat.lt_of_le_of_lt (Nat.sub_le _ _) t.isLt)).2 p q).trans ?_
      rw [point_sum m c t p q O hO, hprev]
      exact (Cert.Runs.runs_succ 512 _ _).symm

/-- At the last point of a run the output tile receives what the accumulator holds: all sixteen runs, the whole sum. -/
theorem out_eq (c : Dev nD) (t : Fin cfg0.N) (h1 : t.val % 16 = 15) (p : Fin 512) (q : Fin 1024) (O : Fin 8192)
    (hO : O.val = t.val / 16 * 1024 + q.val) :
    (outsAt0 m c t.val t.isLt).1 (ix2 p q) = ∑ i : Fin 8192, terms m c p O i := by
  have h0 : ¬t.val % 16 = 0 := by omega
  have hacc := acc_eq m c t.val t rfl p q O hO
  rw [h1, Cert.Runs.runs_all 16 512 rfl] at hacc
  refine Eq.trans ?_ hacc
  rw [outsAt0_C m c t h0 h1]
  dsimp only
  refine (congrFun (Pieces.out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2) (ix2 p q)).trans ?_
  exact (congrFun (Pieces.sout_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2) (ix2 p q)).symm

/-! ## The output array after the run -/

/-- The flattened result: entry (p, O) is the whole sum of its terms. -/
def Y2 (c : Dev nD) : Vec Ideal S512x8192 .f32 := fun j => ∑ i : Fin 8192, terms m c (j 0) (j 1) i

/-- What a writing point writes back is its tile of `Y2`. -/
theorem flushed_eq (c : Dev nD) (t : Fin cfg0.N) (hf : (cfg0.win 5).flush t = true) :
    (dats m 0 c).flushed 5 t = ((cfg0.win 5).blk t).view.read (Elt Ideal) (Y2 m c) := by
  have h1 : t.val % 16 = 15 := (flush0_5 t).mp hf
  obtain ⟨-, -, -, -, -, -, -, -, -, -, e0, e1, -⟩ := idx_facts t
  show (cfg0.win 5).cut (grid0.coords t) ((dats m 0 c).after 5 t) = _
  rw [after0_5]
  refine funext fun (j : S512x1024.Idx) => ?_
  show (outsAt0 m c t.val t.isLt).1 j = Y2 m c (((cfg0.win 5).blk t).view.emb j)
  have hp : (((cfg0.win 5).blk t).view.emb j) 0 = j 0 :=
    Fin.ext (by show win0_5.index t (0 : Fin 2) * 512 + 1 * (j 0).val = (j 0).val; omega)
  have hq : ((((cfg0.win 5).blk t).view.emb j) 1).val = t.val / 16 * 1024 + (j 1).val := by
    show win0_5.index t (1 : Fin 2) * 1024 + 1 * (j 1).val = _; omega
  refine ((congrArg (outsAt0 m c t.val t.isLt).1 (eq_ix2 j)).trans (out_eq m c t h1 (j 0) (j 1) _ hq)).trans ?_
  show ∑ i : Fin 8192, terms m c (j 0) ((((cfg0.win 5).blk t).view.emb j) 1) i
    = ∑ i : Fin 8192, terms m c ((((cfg0.win 5).blk t).view.emb j) 0) ((((cfg0.win 5).blk t).view.emb j) 1) i
  rw [hp]

/-- An index of the array is in point t's output tile iff each coordinate is in the tile's range. -/
theorem mem_blk (t : Fin cfg0.N) (i : S512x8192.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v6).slice (win0_5.rect t)).set ↔ _
  rw [View.set_slice_whole, Rect.mem_set_unit]
  exact Iff.rfl

/-- Every entry is in the tile some writing point writes: column O lies in tile O / 1024, written at the last point of run O / 1024. -/
theorem cover (i : S512x8192.Idx) :
    ∃ t : Fin cfg0.N, (cfg0.win 5).flush t = true ∧ i ∈ ((cfg0.win 5).blk t).view.set := by
  have hi0 : (i 0).val < 512 := (i 0).isLt
  have hi1 : (i 1).val < 8192 := (i 1).isLt
  have hN' : cfg0.N = 128 := hN
  obtain ⟨t, ht⟩ : ∃ t : Fin cfg0.N, t.val = (i 1).val / 1024 * 16 + 15 := ⟨⟨(i 1).val / 1024 * 16 + 15, by omega⟩, rfl⟩
  obtain ⟨-, -, -, -, -, -, -, -, -, -, e0, e1, -⟩ := idx_facts t
  refine ⟨t, (flush0_5 t).mpr (by omega), ?_⟩
  rw [mem_blk]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 1024 ≤ (i 1).val ∧ (i 1).val < win0_5.index t (1 : Fin 2) * 1024 + 1024; omega

/-- The output array after the run is `Y2`. -/
theorem final (c : Dev nD) : (dats m 0 c).arrAt 5 cfg0.N = Y2 m c :=
  (dats m 0 c).arrAt_eq_of_cover 5 (Y2 m c) (fun t hf => flushed_eq m c t hf) cover

end Cert.KernelIdeal.Accum

end
-- ==== Proof.Spec.lean ====
/-
  The function both programs compute.

  A linear layer whose weight is a base matrix plus a low-rank correction:
      w (o, i) = base (o, i) + Σ_r (U (o, r) · S r) · V (i, r),        y (b, s, o) = Σ_i x (b, s, i) · w (o, i),
  over the extended reals, with U scaled by S column by column before the rank-1024 contraction against V, and the
  activations contracted against the rows of w.
-/
import Idealize.ShloMosaic.PureOps.Ideal
import Idealize.ShloMosaic.Lib.ValueIdx

noncomputable section

namespace Cert.LowRank

open Idealize.ShloMosaic Idealize.ShloMosaic.ValueIdx

/-- Entry (o, i) of the reconstructed weight. -/
def weight (base : (⟨2, ![8192, 8192]⟩ : Shape).Idx → EReal) (U : (⟨2, ![8192, 1024]⟩ : Shape).Idx → EReal)
    (S : (⟨1, ![1024]⟩ : Shape).Idx → EReal) (V : (⟨2, ![8192, 1024]⟩ : Shape).Idx → EReal) (o i : Fin 8192) : EReal :=
  base (ix2 o i) + ∑ r : Fin 1024, (U (ix2 o r) * S (ix1 r)) * V (ix2 i r)

/-- The layer's output at (b, s, o). -/
def out (x : (⟨3, ![2, 256, 8192]⟩ : Shape).Idx → EReal) (base : (⟨2, ![8192, 8192]⟩ : Shape).Idx → EReal)
    (U : (⟨2, ![8192, 1024]⟩ : Shape).Idx → EReal) (S : (⟨1, ![1024]⟩ : Shape).Idx → EReal)
    (V : (⟨2, ![8192, 1024]⟩ : Shape).Idx → EReal) : (⟨3, ![2, 256, 8192]⟩ : Shape).Idx → EReal :=
  fun j => ∑ i : Fin 8192, x (ix3 (j 0) (j 1) i) * weight base U S V (j 2) i

end Cert.LowRank

end
-- ==== Proof.HostSides.lean ====
/-
  The host operations around the kernel, and the kernel program's result.

  Before the kernel the activations [2, 256, 8192] are flattened to [512, 8192] (row 256·b + s) and S becomes one row
  [1, 1024]; the conversions to a narrower float format are the identity on extended reals. After it the flat result
  [512, 8192] is cut back into [2, 256, 8192]. So the program's result at (b, s, o) is the flat result at
  (256·b + s, o), which the accumulation shows is the layer's output there.
-/
import proofs.«147516_j43052752175269_1_alg».proof.Proof.Gen.KernelIdeal.Frame
import proofs.«147516_j43052752175269_1_alg».proof.Proof.Pieces
import proofs.«147516_j43052752175269_1_alg».proof.Proof.Tile
import proofs.«147516_j43052752175269_1_alg».proof.Proof.Runs
import Idealize.ShloMosaic.Lib.Pipeline.Value
import Idealize.ShloMosaic.Lib.ValueIdx
import proofs.«147516_j43052752175269_1_alg».proof.Proof.Accum
import proofs.«147516_j43052752175269_1_alg».proof.Proof.Spec
import Idealize.ShloMosaic.Lib.StableHlo.Run
import Idealize.ShloMosaic.Lib.ValueLayout
set_option maxRecDepth 16384

noncomputable section

namespace Cert.KernelIdeal.HostSides

open Idealize.ShloMosaic Idealize.ShloMosaic.TcCoe Idealize.ShloMosaic.ValueIdx
open Idealize.SL Idealize.SL.Sem
open Cert.KernelIdeal Cert.KernelIdeal.Gen

open Idealize.ShloMosaic.StableHlo Cert.KernelIdeal.Accum

variable (m : (ℓ : Loc nD τ sig) → Buf (Elt Ideal) ℓ)

/-- The five argument arrays as launched, at their literal shapes. -/
abbrev arg0 (c : Dev nD) : Vec Ideal S2x256x8192 .f32 := m ((c : Thread nD τ).loc main_arg0)
abbrev arg1 (c : Dev nD) : Vec Ideal S8192x8192 .f32 := m ((c : Thread nD τ).loc main_arg1)
abbrev arg2 (c : Dev nD) : Vec Ideal S8192x1024 .f32 := m ((c : Thread nD τ).loc main_arg2)
abbrev arg3 (c : Dev nD) : Vec Ideal S1024 .f32 := m ((c : Thread nD τ).loc main_arg3)
abbrev arg4 (c : Dev nD) : Vec Ideal S8192x1024 .f32 := m ((c : Thread nD τ).loc main_arg4)

/-- The flattened activations, as the kernel finds them. -/
theorem xf_eq (c : Dev nD) :
    xf m c = truncf (F := Ideal) .bf16 (shapeCast S512x8192 (arg0 m c) shapeCasts_S2x256x8192_S512x8192) bitsLt_bf16_f32 := by
  show StableHlo.after hostOps0 (fun b => m (c, b)) (Proc.devRef .tc main_v1) = _
  after_results
  rfl

theorem uu_eq (c : Dev nD) : uu m c = truncf (F := Ideal) .bf16 (arg2 m c) bitsLt_bf16_f32 := by
  show StableHlo.after hostOps0 (fun b => m (c, b)) (Proc.devRef .tc main_v2) = _
  after_results

theorem vv_eq (c : Dev nD) : vv m c = truncf (F := Ideal) .bf16 (arg4 m c) bitsLt_bf16_f32 := by
  show StableHlo.after hostOps0 (fun b => m (c, b)) (Proc.devRef .tc main_v3) = _
  after_results

theorem ss_eq (c : Dev nD) :
    ss m c = truncf (F := Ideal) .bf16 (shapeCast S1x1024 (arg3 m c) shapeCasts_S1024_S1x1024) bitsLt_bf16_f32 := by
  show StableHlo.after hostOps0 (fun b => m (c, b)) (Proc.devRef .tc main_v5) = _
  after_results
  rfl

theorem bs_eq (c : Dev nD) : bs m c = arg1 m c := V_main_arg1 m c

/-- The program's result buffer after the run: the flat result cut back into [2, 256, 8192]. -/
theorem tail_eq (c : Dev nD) :
    Pipeline.afterTail₀ cfgs (dats m) 0 (V0 m) [hostOps1] c main_v7
      = shapeCast S2x256x8192 (Y2 m c) shapeCasts_S512x8192_S2x256x8192 := by
  unfold Pipeline.afterTail₀
  show StableHlo.after hostOps1 _ (Proc.devRef .tc main_v7) = _
  after_results
  have e : Pipeline.withArrays (cfgs 0).spec c (V0 m c) (fun w => (dats m 0 c).arrAt w (cfgs 0).N) (Proc.devRef .tc main_v6) = Y2 m c :=
    (Pipeline.withArrays_arr spec0 launch0.win.arr_inj c _ _ 5).trans (final m c)
  funext i
  show shapeCast S2x256x8192 (Pipeline.withArrays (cfgs 0).spec c (V0 m c) (fun w => (dats m 0 c).arrAt w (cfgs 0).N) (Proc.devRef .tc main_v6)) shapeCasts_S512x8192_S2x256x8192 i = _
  rw [e]

/-- The flat result at (p, o) is the layer's output at (b, s, o) when p = 256·b + s. -/
theorem Y2_apply (c : Dev nD) (b : Fin 2) (s : Fin 256) (o : Fin 8192) (p : Fin 512) (hp : p.val = b.val * 256 + s.val) :
    Y2 m c (ix2 p o)
      = Cert.LowRank.out (arg0 m c) (arg1 m c)
          (arg2 m c) (arg3 m c) (arg4 m c) (ix3 b s o) := by
  unfold Y2 Cert.LowRank.out Cert.LowRank.weight terms W
  refine Finset.sum_congr rfl fun i _ => ?_
  have hx : xf m c (ix2 p i) = arg0 m c (ix3 b s i) := by
    rw [xf_eq, truncf_apply]
    exact shapeCast_apply (arg0 m c) shapeCasts_S2x256x8192_S512x8192 (ix2 p i) (ix3 b s i) (by
      rw [Shape.rowMajor_val_two, Shape.rowMajor_val_three]
      show (b.val * 256 + s.val) * 8192 + i.val = p.val * 8192 + i.val
      rw [hp])
  show xf m c (ix2 p i) * (bs m c (ix2 o i) + ∑ r : Fin 1024, (uu m c (ix2 o r) * ss m c (ix2 (0 : Fin 1) r)) * vv m c (ix2 i r)) = _
  rw [hx, bs_eq]
  refine congrArg (_ * ·) (congrArg (_ + ·) (Finset.sum_congr rfl fun r _ => ?_))
  rw [uu_eq, vv_eq, ss_eq, truncf_apply, truncf_apply, truncf_apply, shapeCast_a_1a_apply]

/-- The kernel program's result buffer after the run is the layer's output. -/
theorem result_eq (c : Dev nD) :
    Pipeline.afterTail₀ cfgs (dats m) 0 (V0 m) [hostOps1] c main_v7
      = Cert.LowRank.out (arg0 m c) (arg1 m c)
          (arg2 m c) (arg3 m c) (arg4 m c) := by
  rw [tail_eq]
  funext j
  obtain ⟨b, s, o, rfl⟩ : ∃ (b : Fin 2) (s : Fin 256) (o : Fin 8192), j = ix3 b s o := ⟨j 0, j 1, j 2, eq_ix3 j⟩
  have hlt : b.val * 256 + s.val < 512 := by have := b.isLt; have := s.isLt; omega
  refine (shapeCast_apply (Y2 m c) shapeCasts_S512x8192_S2x256x8192 (ix3 b s o) (ix2 ⟨b.val * 256 + s.val, hlt⟩ o) (by
    rw [Shape.rowMajor_val_two, Shape.rowMajor_val_three]; rfl)).trans ?_
  exact Y2_apply m c b s o ⟨_, hlt⟩ rfl

end Cert.KernelIdeal.HostSides

end
-- ==== Proof.KernelRun.lean ====
/-
  The idealized kernel program's run, with its result named.

  Every weakly fair execution terminates; the result buffer holds the layer's output of the argument arrays as
  launched, and the five argument arrays end as they began.
-/
import proofs.«147516_j43052752175269_1_alg».proof.Proof.HostSides

noncomputable section

namespace Cert.KernelIdeal.KernelRun

open Idealize.ShloMosaic Idealize.ShloMosaic.TcCoe
open Idealize.SL Idealize.SL.Sem
open Cert.KernelIdeal Cert.KernelIdeal.Gen

variable (m : (ℓ : Loc nD τ sig) → Buf (Elt Ideal) ℓ) (ρ : Dev nD → PrngReg)

theorem run : θ_run defs (onTc (τ := τ) (main (F := Ideal))) ⟨m, fun _ => 0, ρ⟩ (fun r => ∀ c : Dev nD,
      r.2.mem ((c.tc : Thread nD τ).loc main_v7)
        = Cert.LowRank.out (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
      ((h c).2 main_v7 (Pipeline.mem_restRefs_of main_v7 (by decide) (by decide))).trans (Cert.KernelIdeal.HostSides.result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KernelRun

end
-- ==== Proof.RefSide.lean ====
/-
  The reference computes the specification.

  Its six host operations, read one at a time at an index: the row S broadcast over the 8192 rows of U and multiplied
  in; the product with V contracted over the rank coordinate (both operands' second axis); base added; the activations
  contracted with the result over the input coordinate (the activations' third axis, the weight's second).
-/
import proofs.«147516_j43052752175269_1_alg».proof.Proof.Gen.ReferenceIdeal.Read
import proofs.«147516_j43052752175269_1_alg».proof.Proof.Spec

noncomputable section

namespace Cert.ReferenceIdeal.RefValue

open Idealize.ShloMosaic Idealize.ShloMosaic.ValueIdx
open Cert.ReferenceIdeal Cert.ReferenceIdeal.Gen Cert.ReferenceIdeal.Read

theorem lidx5 (b : Fin 2) (s : Fin 256) (o k : Fin 8192) : lidx_main_v5 (ix3 b s o) k = ix3 b s k :=
  funext fun a => Fin.ext (by match a with | ⟨0, _⟩ => rfl | ⟨1, _⟩ => rfl | ⟨2, _⟩ => rfl)
theorem ridx5 (b : Fin 2) (s : Fin 256) (o k : Fin 8192) : ridx_main_v5 (ix3 b s o) k = ix2 o k :=
  funext fun a => Fin.ext (by match a with | ⟨0, _⟩ => rfl | ⟨1, _⟩ => rfl)
theorem lidx3 (o k : Fin 8192) (r : Fin 1024) : lidx_main_v3 (ix2 o k) r = ix2 o r :=
  funext fun a => Fin.ext (by match a with | ⟨0, _⟩ => rfl | ⟨1, _⟩ => rfl)
theorem ridx3 (o k : Fin 8192) (r : Fin 1024) : ridx_main_v3 (ix2 o k) r = ix2 k r :=
  funext fun a => Fin.ext (by match a with | ⟨0, _⟩ => rfl | ⟨1, _⟩ => rfl)
theorem idx1 (o : Fin 8192) (r : Fin 1024) : idx_main_v1 (ix2 o r) = ix2 (0 : Fin 1) r :=
  funext fun a => Fin.ext (by match a with | ⟨0, _⟩ => rfl | ⟨1, _⟩ => rfl)
theorem idx0 (r : Fin 1024) : idx_main_v0 (ix2 (0 : Fin 1) r) = ix1 r :=
  funext fun a => Fin.ext (by match a with | ⟨0, _⟩ => rfl)

/-- The reference's result is the layer's output, entry by entry. -/
theorem result_eq (x0 : (⟨S2x256x8192, .f32⟩ : BufTy).Contents (Elt Ideal)) (x1 : (⟨S8192x8192, .f32⟩ : BufTy).Contents (Elt Ideal))
    (x2 : (⟨S8192x1024, .f32⟩ : BufTy).Contents (Elt Ideal)) (x3 : (⟨S1024, .f32⟩ : BufTy).Contents (Elt Ideal))
    (x4 : (⟨S8192x1024, .f32⟩ : BufTy).Contents (Elt Ideal)) :
    val_main_v5 (F := Ideal) x0 x1 x2 x3 x4 = Cert.LowRank.out x0 x1 x2 x3 x4 := by
  funext j
  obtain ⟨b, s, o, rfl⟩ : ∃ (b : Fin 2) (s : Fin 256) (o : Fin 8192), j = ix3 b s o := ⟨j 0, j 1, j 2, eq_ix3 j⟩
  rw [val_main_v5_apply]
  unfold Cert.LowRank.out Cert.LowRank.weight
  refine Finset.sum_congr rfl fun k _ => ?_
  rw [lidx5, ridx5, val_main_v4_apply, val_main_v3_apply]
  refine congrArg (x0 (ix3 b s k) * ·) (congrArg (x1 (ix2 o k) + ·) (Finset.sum_congr rfl fun r _ => ?_))
  rw [lidx3, ridx3, val_main_v2_apply, val_main_v1_apply, idx1, val_main_v0_apply, idx0]
  rfl

end Cert.ReferenceIdeal.RefValue

end
-- ==== Proof.lean ====
/-
  A linear layer with a low-rank-corrected weight: the kernel against the reference, over the extended reals.

  Both programs compute   y (b, s, o) = Σ_i x (b, s, i) · (base (o, i) + Σ_r (U (o, r) · S r) · V (i, r)).
  The reference does it with two whole contractions. The kernel never forms the 8192 x 8192 weight: it walks an
  8 x 16 grid, at each point building a 1024 x 512 tile of the weight from tiles of base, U, S and V and contracting it
  with the matching 512 columns of the flattened activations, and it adds the sixteen partial products of a run into
  an accumulator that starts at zero and is copied to the output tile at the run's last point. Term for term the two
  sides multiply and add the same numbers in the same order inside each product; they differ only in that the sum over
  the 8192 input coordinates is taken in sixteen runs of 512, which on the extended reals (addition commutative and
  associative) changes nothing and asks no finiteness of the inputs. The conversions to a narrower float format are
  the identity there, and the flattening and unflattening of the activations' leading axes are re-indexings.
  The idealization rewrote no operation, so the kernel's idealized text is its own text read over the extended reals.
-/
import proofs.«147516_j43052752175269_1_alg».proof.Defs
import proofs.«147516_j43052752175269_1_alg».proof.Proof.Gen.Kernel
import proofs.«147516_j43052752175269_1_alg».proof.Proof.Gen.Kernel.Frame
import proofs.«147516_j43052752175269_1_alg».proof.Proof.Gen.KernelIdeal
import proofs.«147516_j43052752175269_1_alg».proof.Proof.Gen.KernelIdeal.Frame
import proofs.«147516_j43052752175269_1_alg».proof.Proof.Gen.ReferenceIdeal
import proofs.«147516_j43052752175269_1_alg».proof.Proof.Gen.Pre_finite_inputs
import proofs.«147516_j43052752175269_1_alg».proof.Proof.Gen.ReferenceIdeal.Run
import proofs.«147516_j43052752175269_1_alg».proof.Proof.Gen.ReferenceIdeal.Read
import proofs.«147516_j43052752175269_1_alg».proof.Proof.KernelRun
import proofs.«147516_j43052752175269_1_alg».proof.Proof.RefSide
import Idealize.ShloMosaic.Adequacy
import Idealize.ShloMosaic.Init

noncomputable section

namespace Cert.Proof

open Idealize.ShloMosaic Idealize.SL.Sem

/-- The kernel as printed runs to the end and leaves its arguments alone. -/
theorem frame_kernel [Cert.Kernel.Facts] [Cert.Pre_finite_inputs.Facts] : Cert.frame_Kernel :=
  fun m ρ _ => Cert.Kernel.Gen.frame m ρ

/-- So does its reading over the extended reals. -/
theorem frame_kernelIdeal [Cert.KernelIdeal.Facts] [Cert.Pre_finite_inputs.Facts] : Cert.frame_KernelIdeal :=
  fun m ρ _ => Cert.KernelIdeal.Gen.frame m ρ

/-- The reference is six host operations in a row: its run, with the result forgotten. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- No operation was rewritten. -/
theorem preserves : Cert.preserves_Kernel_KernelIdeal := trivial

/-- From memories that agree on the five arguments both programs end with the layer's output of those arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact Cert.ReferenceIdeal.RefValue.result_eq _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
